-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S512 : Shape := ⟨1, ![512]⟩
abbrev S64 : Shape := ⟨1, ![64]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S64x1024x512 .f32) (main_arg1 : FVec F S512 .f32) (main_arg2 : FVec F S512 .f32) (main_arg3 : IVec S64 32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S64x1024x512 : Shape := ⟨3, ![64, 1024, 512]⟩
abbrev S512 : Shape := ⟨1, ![512]⟩
abbrev S64 : Shape := ⟨1, ![64]⟩
abbrev S2x1024x512 : Shape := ⟨3, ![2, 1024, 512]⟩
abbrev S1 : Shape := ⟨1, ![1]⟩
abbrev S2 : Shape := ⟨1, ![2]⟩
abbrev S2x1x1 : Shape := ⟨3, ![2, 1, 1]⟩
abbrev S2x1024x1 : Shape := ⟨3, ![2, 1024, 1]⟩
abbrev S2x1024 : Shape := ⟨2, ![2, 1024]⟩
abbrev S1x1x512 : Shape := ⟨3, ![1, 1, 512]⟩

abbrev nBuf : Space → Nat
  | .hbm => 4
  | .vmem => 6
  | .smem => 1
  | _ => 0

abbrev bufTy : (tb : Table) → Fin (tcTables nBuf tb) → BufTy
  | .hbm, ⟨0, _⟩ => ⟨S64x1024x512, .f32⟩
  | .hbm, ⟨1, _⟩ => ⟨S512, .f32⟩
  | .hbm, ⟨2, _⟩ => ⟨S512, .f32⟩
  | .hbm, ⟨3, _⟩ => ⟨S64x1024x512, .f32⟩
  | .local _ .vmem, ⟨0, _⟩ => ⟨S2x1024x512, .f32⟩
  | .local _ .vmem, ⟨1, _⟩ => ⟨S2x1024x512, .f32⟩
  | .local _ .vmem, ⟨2, _⟩ => ⟨S512, .f32⟩
  | .local _ .vmem, ⟨3, _⟩ => ⟨S512, .f32⟩
  | .local _ .vmem, ⟨4, _⟩ => ⟨S2x1024x512, .f32⟩
  | .local _ .vmem, ⟨5, _⟩ => ⟨S2x1024x512, .f32⟩
  | .local _ .smem, ⟨0, _⟩ => ⟨S64, .i32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![v2.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  numel1_S1 : S1.numel = 1
  concatenates_S1_S1_S2_d0 : Shape.Concatenates [S1, S1] S2 0
  shapeCasts_S2_S2x1x1 : S2.ShapeCasts S2x1x1
  iota_S2x1024x1_d1_w32 : S2x1024x1.Iotas .tc 32 [1]
  broadcasts_S2x1x1_S2x1024x1 : S2x1x1.Broadcasts S2x1024x1
  natLt_1_32 : 1 < 32
  inb_S2x1024x512_S2x1024x512_0_0_0 : ∀ a, (![0, 0, 0] : Fin 3 → Nat) a + S2x1024x512.size a ≤ S2x1024x512.size a
  h_S2x1024x512 : 0 < S2x1024x512.numel
  broadcasts_S2x1024x1_S2x1024x512 : S2x1024x1.Broadcasts S2x1024x512
  reduces_S2x1024x512_S2x1024 : S2x1024x512.Reduces [2] S2x1024
  shapeCasts_S2x1024_S2x1024x1 : S2x1024.ShapeCasts S2x1024x1
  inb_S512_S512_0 : ∀ a, (![0] : Fin 1 → Nat) a + S512.size a ≤ S512.size a
  h_S512 : 0 < S512.numel
  shapeCasts_S512_S1x1x512 : S512.ShapeCasts S1x1x512
  broadcasts_S1x1x512_S2x1024x512 : S1x1x512.Broadcasts S2x1024x512
  hrank0 : 0 < grid0.rank
  k0_off1_inb : ∀ i : grid0.Coords, ∀ (r : Fin 2), ∀ a, (k0_off1 i (BitVec.ofNat 32 r.val)) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x512.size a ≤ S64x1024x512.size a
  hwx0_0 : ∀ i : grid0.Coords, EltTy.bits .f32 = 32 ∨ (Rect.block (s := S64x1024x512) S2x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x512.size a ≤ S64x1024x512.size a
  hwx0_3 : ∀ i : grid0.Coords, EltTy.bits .f32 = 32 ∨ (Rect.block (s := S64x1024x512) S2x1024x512.size (cc0_transform_3 i) (hinb0_3 i)).WholeWords (EltTy.packing .f32)

variable [Facts₀]

abbrev spec0_0 : Pipeline.WinSpec sig grid0.rank :=
  Pipeline.WinSpec.ofSpec (Memref.whole main_arg0) S2x1024x512.size reads0_0 false false 2 stage0_0 sem0_0 nbuf0_0 hstage0_0

abbrev spec0_1 : Pipeline.WinSpec sig grid0.rank :=
  Pipeline.WinSpec.ofSpec (Memref.whole main_arg1) S512.size reads0_1 false true 1 stage0_1 sem0_1 nbuf0_1 hstage0_1

abbrev spec0_2 : Pipeline.WinSpec sig grid0.rank :=
  Pipeline.WinSpec.ofSpec (Memref.whole main_arg2) S512.size reads0_2 false true 1 stage0_2 sem0_2 nbuf0_2 hstage0_2

abbrev spec0_3 : Pipeline.WinSpec sig grid0.rank :=
  Pipeline.WinSpec.ofSpec (Memref.whole main_v0) S2x1024x512.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x1024x512 : Shape := ⟨3, ![64, 1024, 512]⟩
abbrev S512 : Shape := ⟨1, ![512]⟩
abbrev S64 : Shape := ⟨1, ![64]⟩
abbrev S1024 : Shape := ⟨1, ![1024]⟩
abbrev S1x1024 : Shape := ⟨2, ![1, 1024]⟩
abbrev S64x1 : Shape := ⟨2, ![64, 1]⟩
abbrev S64x1024 : Shape := ⟨2, ![64, 1024]⟩
abbrev S64x1024x1 : Shape := ⟨3, ![64, 1024, 1]⟩
abbrev S_ : Shape := ⟨0, ![]⟩
abbrev S1x1x512 : Shape := ⟨3, ![1, 1, 512]⟩

abbrev nBuf : Space → Nat
  | .hbm => 45
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S512, .f32⟩
  | .hbm, ⟨2, _⟩ => ⟨S512, .f32⟩
  | .hbm, ⟨3, _⟩ => ⟨S64, .i32⟩
  | .hbm, ⟨4, _⟩ => ⟨S1024, .i32⟩
  | .hbm, ⟨5, _⟩ => ⟨S1x1024, .i32⟩
  | .hbm, ⟨6, _⟩ => ⟨S64x1, .i32⟩
  | .hbm, ⟨7, _⟩ => ⟨S64x1024, .i32⟩
  | .hbm, ⟨8, _⟩ => ⟨S64x1024, .i32⟩
  | .hbm, ⟨9, _⟩ => ⟨S64x1024, .i1⟩
  | .hbm, ⟨10, _⟩ => ⟨S64x1024, .f32⟩
  | .hbm, ⟨11, _⟩ => ⟨S64x1024x1, .f32⟩
  | .hbm, ⟨12, _⟩ => ⟨S64x1024x512, .f32⟩
  | .hbm, ⟨13, _⟩ => ⟨S64x1024x512, .f32⟩
  | .hbm, ⟨14, _⟩ => ⟨S_, .f32⟩
  | .hbm, ⟨15, _⟩ => ⟨S64x1024, .f32⟩
  | .hbm, ⟨16, _⟩ => ⟨S_, .f32⟩
  | .hbm, ⟨17, _⟩ => ⟨S64x1024, .f32⟩
  | .hbm, ⟨18, _⟩ => ⟨S64x1024, .f32⟩
  | .hbm, ⟨19, _⟩ => ⟨S64x1024x1, .f32⟩
  | .hbm, ⟨20, _⟩ => ⟨S64x1024x512, .f32⟩
  | .hbm, ⟨21, _⟩ => ⟨S64x1024x512, .f32⟩
  | .hbm, ⟨22, _⟩ => ⟨S64x1024x512, .f32⟩
  | .hbm, ⟨23, _⟩ => ⟨S64x1024x512, .f32⟩
  | .hbm, ⟨24, _⟩ => ⟨S64x1024x512, .f32⟩
  | .hbm, ⟨25, _⟩ => ⟨S_, .f32⟩
  | .hbm, ⟨26, _⟩ => ⟨S64x1024, .f32⟩
  | .hbm, ⟨27, _⟩ => ⟨S_, .f32⟩
  | .hbm, ⟨28, _⟩ => ⟨S64x1024, .f32⟩
  | .hbm, ⟨29, _⟩ => ⟨S64x1024, .f32⟩
  | .hbm, ⟨30, _⟩ => ⟨S64x1024, .f32⟩
  | .hbm, ⟨31, _⟩ => ⟨S64x1024x1, .f32⟩
  | .hbm, ⟨32, _⟩ => ⟨S_, .f32⟩
  | .hbm, ⟨33, _⟩ => ⟨S64x1024x1, .f32⟩
  | .hbm, ⟨34, _⟩ => ⟨S64x1024x1, .f32⟩
  | .hbm, ⟨35, _⟩ => ⟨S64x1024x512, .f32⟩
  | .hbm, ⟨36, _⟩ => ⟨S64x1024x512, .f32⟩
  | .hbm, ⟨37, _⟩ => ⟨S1x1x512, .f32⟩
  | .hbm, ⟨38, _⟩ => ⟨S64x1024x512, .f32⟩
  | .hbm, ⟨39, _⟩ => ⟨S64x1024x512, .f32⟩
  | .hbm, ⟨40, _⟩ => ⟨S1x1x512, .f32⟩
  | .hbm, ⟨41, _⟩ => ⟨S64x1024x512, .f32⟩
  | .hbm, ⟨42, _⟩ => ⟨S64x1024x512, .f32⟩
  | .hbm, ⟨43, _⟩ => ⟨S64x1024x512, .f32⟩
  | .hbm, ⟨44, _⟩ => ⟨S64x1024x512, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S64_S64x1_0 : S64.BroadcastsInDim S64x1 (![0] : Fin 1 → Fin S64x1.rank)
  bcast_S1x1024_S64x1024_0_1 : S1x1024.BroadcastsInDim S64x1024 (![0, 1] : Fin 2 → Fin S64x1024.rank)
  bcast_S64x1_S64x1024_0_1 : S64x1.BroadcastsInDim S64x1024 (![0, 1] : Fin 2 → Fin S64x1024.rank)
  bcast_S64x1024_S64x1024x1_0_1 : S64x1024.BroadcastsInDim S64x1024x1 (![0, 1] : Fin 2 → Fin S64x1024x1.rank)
  bcast_S64x1024x1_S64x1024x512_0_1_2 : S64x1024x1.BroadcastsInDim S64x1024x512 (![0, 1, 2] : Fin 3 → Fin S64x1024x512.rank)
  reducesTo_S64x1024x512_S64x1024_d2 : S64x1024x512.ReducesTo [2] S64x1024
  h_S_ : 0 < S_.numel
  bcast_S_S64x1024 : S_.BroadcastsInDim S64x1024 (![] : Fin 0 → Fin S64x1024.rank)
  bcast_S_S64x1024x1 : S_.BroadcastsInDim S64x1024x1 (![] : Fin 0 → Fin S64x1024x1.rank)
  bcast_S512_S1x1x512_2 : S512.BroadcastsInDim S1x1x512 (![2] : Fin 1 → Fin S1x1x512.rank)
  bcast_S1x1x512_S64x1024x512_0_1_2 : S1x1x512.BroadcastsInDim S64x1024x512 (![0, 1, 2] : Fin 3 → Fin S64x1024x512.rank)

variable [Facts₀]

class Facts : Prop extends Facts₀ where

variable [Facts]
-- ==== Proof.RowSpec.lean ====
/-
  The value both programs compute, one row at a time, on the extended reals.

  For sequence b, row s and feature f, with M the 0/1 mask "s is below the sequence's length",
  n the feature count and ε the stabilizer:
      xm_k  = x_k · M
      c_k   = xm_k − (∑_j xm_j) / n
      y_f   = ((c_f / (√((∑_j c_j²) / n) + ε)) · g_f + β_f) · M.
  One program multiplies the centred entries by M once more before squaring and dividing. Since M
  is 0 or 1 this changes nothing: for M = 1 the extra factor is the identity, and for M = 0 both
  results end in a product with 0, which is 0 for every extended real.
-/
import Idealize.ShloMosaic.PureOps.Ideal
import Idealize.ShloMosaic.Lib.ValueIdx

noncomputable section

namespace MaskedRowNorm

open Idealize.ShloMosaic Idealize.ShloMosaic.ValueIdx

/-- A one-bit word read as a number: 0 or 1. -/
def bit01 (w : BitVec 1) : EReal := ((w.toNat : ℝ) : EReal)

theorem bit_cases (w : BitVec 1) : w = 0#1 ∨ w = 1#1 := by revert w; decide

theorem bit01_cases (w : BitVec 1) : bit01 w = 0 ∨ bit01 w = 1 := by
  rcases bit_cases w with rfl | rfl
  · left; simp [bit01]
  · right; simp [bit01]

/-- Widening the bit to 32 bits without sign and reading it signed gives the same number. -/
theorem signed_widen (w : BitVec 1) : (((w.setWidth 32).toInt : ℝ) : EReal) = bit01 w := by
  have e : (w.setWidth 32).toInt = (w.toNat : Int) := by revert w; decide
  unfold bit01
  rw [e]
  simp

/-- Entry k of a masked row, centred by the mean of the masked row. -/
def centred (row : Fin 512 → EReal) (M n : EReal) (k : Fin 512) : EReal :=
  row k * M - Ideal.div (∑ j, row j * M) n

/-- The normalized, scaled, shifted and masked entry k of a row. -/
def normRow (row : Fin 512 → EReal) (M n ε g β : EReal) (k : Fin 512) : EReal :=
  (Ideal.div (centred row M n k) (Ideal.sqrt (Ideal.div (∑ j, centred row M n j * centred row M n j) n) + ε) * g + β) * M

/-- The same with every centred entry multiplied by the mask once more. -/
def normRowRemasked (row : Fin 512 → EReal) (M n ε g β : EReal) (k : Fin 512) : EReal :=
  (Ideal.div (centred row M n k * M)
      (Ideal.sqrt (Ideal.div (∑ j, (centred row M n j * M) * (centred row M n j * M)) n) + ε) * g + β) * M

/-- For a 0/1 mask the extra multiplication changes nothing. -/
theorem normRowRemasked_eq (row : Fin 512 → EReal) (M n ε g β : EReal) (k : Fin 512) (hM : M = 0 ∨ M = 1) :
    normRowRemasked row M n ε g β k = normRow row M n ε g β k := by
  rcases hM with rfl | rfl
  · unfold normRowRemasked normRow
    rw [mul_zero, mul_zero]
  · unfold normRowRemasked normRow
    simp only [mul_one]

/-- The whole array [64, 1024, 512]. -/
abbrev Arr : Shape := ⟨3, ![64, 1024, 512]⟩
/-- One length per sequence. -/
abbrev Lens : Shape := ⟨1, ![64]⟩

/-- The mask of row s of a sequence of length len (a signed comparison of 32-bit words). -/
def rowMask (len : BitVec 32) (s : Fin 1024) : EReal := bit01 (IntOp.cmpi .slt (BitVec.ofNat 32 s.val) len)

theorem rowMask_cases (len : BitVec 32) (s : Fin 1024) : rowMask len s = 0 ∨ rowMask len s = 1 := bit01_cases _

/-- The feature count 512 and the stabilizer, as the single-precision words both programs spell. -/
abbrev nFeat : EReal := Ideal.ofBits .f32 0x44000000#32
abbrev stab : EReal := Ideal.ofBits .f32 0x3727C5AC#32

/-- The result array: every row normalized over its features under its sequence's mask. -/
def result (x : Arr.Idx → EReal) (g β : (⟨1, ![512]⟩ : Shape).Idx → EReal) (L : Lens.Idx → BitVec 32) (i : Arr.Idx) : EReal :=
  normRow (fun k => x (ix3 (i 0) (i 1) k)) (rowMask (L (ix1 (i 0))) (i 1)) nFeat stab (g (ix1 (i 2))) (β (ix1 (i 2))) (i 2)

end MaskedRowNorm

end
-- ==== Proof.RefValue.lean ====
/-
  The reference's result, stage by stage, is the row-wise specification.

  Read at sequence b, row s, feature f: the mask is the 0/1 value of "s below the length of b";
  the masked row, its mean and its centred entries follow; the reference multiplies the centred
  entries by the mask once more, which for a 0/1 mask changes nothing.
-/
import proofs.«430774_j80152679678428_3_alg».proof.Proof.Gen.ReferenceIdeal.Run
import proofs.«430774_j80152679678428_3_alg».proof.Proof.Gen.ReferenceIdeal.Read
import proofs.«430774_j80152679678428_3_alg».proof.Proof.RowSpec
import Idealize.ShloMosaic.PureOps.Ideal.Laws

noncomputable section

namespace Cert.ReferenceIdeal.RefValue

open Cert.ReferenceIdeal Cert.ReferenceIdeal.Read Idealize.ShloMosaic Idealize.ShloMosaic.ValueIdx MaskedRowNorm

variable (x : FVec Ideal S64x1024x512 .f32) (g β : FVec Ideal S512 .f32) (L : IVec S64 32)

/-- The mask column at (b, s): 1 when row s is below the length of sequence b, else 0. -/
theorem mask_at (b : Fin 64) (s : Fin 1024) :
    val_main_v7 (F := Ideal) L (ix3 b s 0) = rowMask (L (ix1 b)) s := by
  rw [val_main_v7_apply, val_main_v6_apply, val_main_v5_apply, val_main_v3_apply, val_main_v1_apply, val_main_v0_apply,
    val_main_v4_apply, val_main_v2_apply]
  have e : idx_main_v2 (idx_main_v4 (idx_main_v7 (ix3 b s (0 : Fin 1)))) = ix1 b :=
    funext fun a => match a with | ⟨0, _⟩ => rfl
  rw [e]
  rfl

/-- The masked input at (b, s, k). -/
theorem masked_at (b : Fin 64) (s : Fin 1024) (k : Fin 512) :
    val_main_v9 (F := Ideal) x L (ix3 b s k) = x (ix3 b s k) * rowMask (L (ix1 b)) s := by
  rw [val_main_v9_apply, val_main_v8_apply]
  have e : idx_main_v8 (ix3 b s k) = ix3 b s 0 :=
    funext fun a => match a with | ⟨0, _⟩ => rfl | ⟨1, _⟩ => rfl | ⟨2, _⟩ => rfl
  rw [e, mask_at]
  rfl

/-- The mean of the masked row (b, s). -/
theorem mean_at (b : Fin 64) (s : Fin 1024) :
    val_main_v12 (F := Ideal) x L (ix2 b s)
      = Ideal.div (∑ k : Fin 512, x (ix3 b s k) * rowMask (L (ix1 b)) s) nFeat := by
  rw [val_main_v12_apply, val_main_v10_apply, val_main_v11_apply, val_main_cst_0_apply, val_main_cst_apply]
  simp only [Ideal.hostDivf_def, Ideal.ofBits_def, Ideal.ofBits_zero_f32, zero_add]
  refine congrArg (fun z => Ideal.div z nFeat) (Finset.sum_congr rfl fun k _ => ?_)
  have e : idx_main_v10 (ix2 b s) k = ix3 b s k :=
    funext fun a => match a with | ⟨0, _⟩ => rfl | ⟨1, _⟩ => rfl | ⟨2, _⟩ => rfl
  rw [e, masked_at]

/-- The centred entry (b, s, k), multiplied by the mask once more. -/
theorem recentred_at (b : Fin 64) (s : Fin 1024) (k : Fin 512) :
    val_main_v17 (F := Ideal) x L (ix3 b s k)
      = centred (fun j => x (ix3 b s j)) (rowMask (L (ix1 b)) s) nFeat k * rowMask (L (ix1 b)) s := by
  rw [val_main_v17_apply, val_main_v15_apply, val_main_v14_apply, val_main_v13_apply, val_main_v16_apply]
  have e1 : idx_main_v13 (idx_main_v14 (ix3 b s k)) = ix2 b s :=
    funext fun a => match a with | ⟨0, _⟩ => rfl | ⟨1, _⟩ => rfl
  have e2 : idx_main_v16 (ix3 b s k) = ix3 b s 0 :=
    funext fun a => match a with | ⟨0, _⟩ => rfl | ⟨1, _⟩ => rfl | ⟨2, _⟩ => rfl
  rw [e1, e2, masked_at, mean_at, mask_at]
  rfl

/-- The denominator of row (b, s): the root of the mean square of the re-masked centred entries, plus the stabilizer. -/
theorem denom_at (b : Fin 64) (s : Fin 1024) :
    val_main_v25 (F := Ideal) x L (ix3 b s 0)
      = Ideal.sqrt (Ideal.div (∑ j : Fin 512,
          (centred (fun j => x (ix3 b s j)) (rowMask (L (ix1 b)) s) nFeat j * rowMask (L (ix1 b)) s)
            * (centred (fun j => x (ix3 b s j)) (rowMask (L (ix1 b)) s) nFeat j * rowMask (L (ix1 b)) s)) nFeat) + stab := by
  rw [val_main_v25_apply, val_main_v23_apply, val_main_v22_apply, val_main_v21_apply, val_main_v19_apply, val_main_v20_apply,
    val_main_cst_2_apply, val_main_cst_1_apply, val_main_v24_apply, val_main_cst_3_apply]
  simp only [Ideal.hostDivf_def, Ideal.hostUnary_sqrt_def, Ideal.addf_def, Ideal.ofBits_def, Ideal.ofBits_zero_f32, zero_add]
  refine congrArg (fun z => Ideal.sqrt (Ideal.div z nFeat) + stab) (Finset.sum_congr rfl fun k _ => ?_)
  have e : idx_main_v19 (idx_main_v23 (ix3 b s (0 : Fin 1))) k = ix3 b s k :=
    funext fun a => match a with | ⟨0, _⟩ => rfl | ⟨1, _⟩ => rfl | ⟨2, _⟩ => rfl
  rw [e, val_main_v18_apply, recentred_at]
  rfl

/-- The reference's result is the specification. -/
theorem result_eq : val_main_v35 (F := Ideal) x g β L = result x g β L := by
  funext i
  obtain ⟨b, s, f, rfl⟩ : ∃ (b : Fin 64) (s : Fin 1024) (f : Fin 512), i = ix3 b s f := ⟨i 0, i 1, i 2, eq_ix3 i⟩
  rw [val_main_v35_apply, val_main_v33_apply, val_main_v30_apply, val_main_v27_apply, val_main_v26_apply, val_main_v29_apply,
    val_main_v28_apply, val_main_v32_apply, val_main_v31_apply, val_main_v34_apply]
  have e1 : idx_main_v26 (ix3 b s f) = ix3 b s 0 :=
    funext fun a => match a with | ⟨0, _⟩ => rfl | ⟨1, _⟩ => rfl | ⟨2, _⟩ => rfl
  have e2 : idx_main_v28 (idx_main_v29 (ix3 b s f)) = ix1 f := funext fun a => match a with | ⟨0, _⟩ => rfl
  have e3 : idx_main_v31 (idx_main_v32 (ix3 b s f)) = ix1 f := funext fun a => match a with | ⟨0, _⟩ => rfl
  have e4 : idx_main_v34 (ix3 b s f) = ix3 b s 0 :=
    funext fun a => match a with | ⟨0, _⟩ => rfl | ⟨1, _⟩ => rfl | ⟨2, _⟩ => rfl
  rw [e1, e2, e3, e4, recentred_at, denom_at, mask_at]
  exact normRowRemasked_eq _ _ _ _ _ _ _ (rowMask_cases _ _)

end Cert.ReferenceIdeal.RefValue

end
-- ==== Proof.RowLayout.lean ====
/-
  The layout operations of a row-wise normalization over blocks of two sequences, read at an index.
  A block is [2, 1024, 512]: sequence p of the pair, row s, feature f. Per-row quantities live in a
  column [2, 1024, 1]; the affine parameters are one row of 512 features; the two sequence lengths
  are stacked into [2] and reshaped to [2, 1, 1].
-/
import Idealize.ShloMosaic.Lib.Pipeline.Value
import Idealize.ShloMosaic.Lib.ValueIdx
import Idealize.ShloMosaic.PureOps.Ideal.Laws

noncomputable section

namespace MaskedRowNorm

open Idealize.ShloMosaic Idealize.ShloMosaic.ValueIdx

/-- A block: two sequences, all rows, all features. -/
abbrev Blk : Shape := ⟨3, ![2, 1024, 512]⟩
/-- One value per row of a block, kept as a column. -/
abbrev Col : Shape := ⟨3, ![2, 1024, 1]⟩
/-- One value per row of a block. -/
abbrev Rows : Shape := ⟨2, ![2, 1024]⟩
/-- One value per feature. -/
abbrev Feat : Shape := ⟨1, ![512]⟩
/-- The same, as a [1, 1, 512] row. -/
abbrev FeatRow : Shape := ⟨3, ![1, 1, 512]⟩
abbrev One : Shape := ⟨1, ![1]⟩
abbrev Pair : Shape := ⟨1, ![2]⟩
abbrev PairCol : Shape := ⟨3, ![2, 1, 1]⟩

variable {α : Type}

/-- A per-row column broadcast along the features reads its row. -/
theorem col_bcast (v : Col.Idx → α) (h : Col.Broadcasts Blk) (p : Fin 2) (s : Fin 1024) (f : Fin 512) :
    broadcastTo Blk v h (ix3 p s f) = v (ix3 p s 0) :=
  broadcastTo_apply v h (ix3 p s f) (ix3 p s 0) (fun a => match a with
    | ⟨0, _⟩ => by show p.val = if (2 : Nat) = 1 then 0 else p.val; rw [if_neg (by decide)]
    | ⟨1, _⟩ => by show s.val = if (1024 : Nat) = 1 then 0 else s.val; rw [if_neg (by decide)]
    | ⟨2, _⟩ => by show 0 = if (1 : Nat) = 1 then 0 else f.val; rw [if_pos rfl])

/-- A per-row value reshaped to a column reads the row. -/
theorem keepdims (v : Rows.Idx → α) (h : Rows.ShapeCasts Col) (p : Fin 2) (s : Fin 1024) :
    shapeCast Col v h (ix3 p s 0) = v (ix2 p s) :=
  shapeCast_apply v h (ix3 p s 0) (ix2 p s) (by
    rw [Shape.rowMajor_val_two, Shape.rowMajor_val_three]
    show p.val * 1024 + s.val = (p.val * 1024 + s.val) * 1 + 0
    omega)

/-- A feature vector reshaped to one row and broadcast over the block reads its feature. -/
theorem feat_bcast (x : Feat.Idx → α) (h1 : Feat.ShapeCasts FeatRow) (h2 : FeatRow.Broadcasts Blk)
    (p : Fin 2) (s : Fin 1024) (f : Fin 512) :
    broadcastTo Blk (shapeCast FeatRow x h1) h2 (ix3 p s f) = x (ix1 f) := by
  rw [broadcastTo_apply (shapeCast FeatRow x h1) h2 (ix3 p s f) (ix3 0 0 f) (fun a => match a with
    | ⟨0, _⟩ => by show 0 = if (1 : Nat) = 1 then 0 else p.val; rw [if_pos rfl]
    | ⟨1, _⟩ => by show 0 = if (1 : Nat) = 1 then 0 else s.val; rw [if_pos rfl]
    | ⟨2, _⟩ => by show f.val = if (512 : Nat) = 1 then 0 else f.val; rw [if_neg (by decide)])]
  exact shapeCast_apply x h1 (ix3 0 0 f) (ix1 f) (by
    rw [Shape.rowMajor_val_one, Shape.rowMajor_val_three]
    show f.val = ((0 : Fin 1).val * 1 + (0 : Fin 1).val) * 512 + f.val
    simp)

/-- The row number along the rows of a column. -/
theorem row_iota (h : Col.Iotas .tc 32 [1]) (p : Fin 2) (s : Fin 1024) :
    iota .tc Col 32 [1] h (ix3 p s 0) = BitVec.ofNat 32 s.val :=
  iota_single_apply .tc Col 32 1 h (ix3 p s 0)

/-- Two scalars stacked, reshaped to [2, 1, 1] and broadcast down the rows: sequence p reads its own scalar. -/
theorem pair_col (a b : α) (hc : Shape.Concatenates [One, One] Pair 0) (hs : Pair.ShapeCasts PairCol)
    (hb : PairCol.Broadcasts Col) (p : Fin 2) (s : Fin 1024) :
    broadcastTo Col (shapeCast PairCol (concatenate Pair 0 [⟨One, broadcast One a⟩, ⟨One, broadcast One b⟩] hc) hs) hb (ix3 p s 0)
      = if p = 0 then a else b := by
  rw [broadcastTo_apply _ hb (ix3 p s 0) (ix3 p 0 0) (fun a => match a with
    | ⟨0, _⟩ => by show p.val = if (2 : Nat) = 1 then 0 else p.val; rw [if_neg (by decide)]
    | ⟨1, _⟩ => by show 0 = if (1 : Nat) = 1 then 0 else s.val; rw [if_pos rfl]
    | ⟨2, _⟩ => by show 0 = if (1 : Nat) = 1 then 0 else 0; rw [if_pos rfl])]
  rw [shapeCast_apply _ hs (ix3 p 0 0) (ix1 p) (by
    rw [Shape.rowMajor_val_one, Shape.rowMajor_val_three]
    show p.val = (p.val * 1 + (0 : Fin 1).val) * 1 + (0 : Fin 1).val
    simp)]
  by_cases hp : p = 0
  · subst hp
    rw [if_pos rfl]
    exact concatenate_pair_apply_left (0 : Fin Pair.rank) (broadcast One a) (broadcast One b) hc _ rfl (ix1 0)
      (fun b => match b with | ⟨0, _⟩ => rfl)
  · have hp1 : p = 1 := Fin.ext (by
      have h2 := p.isLt
      have h0 : p.val ≠ 0 := fun h => hp (Fin.ext h)
      show p.val = 1
      omega)
    subst hp1
    rw [if_neg (by decide)]
    exact concatenate_pair_apply_right (0 : Fin Pair.rank) (broadcast One a) (broadcast One b) hc _ rfl rfl (ix1 0)
      (fun b hb => match b with | ⟨0, _⟩ => absurd rfl hb) rfl

/-- A sum along the features of a block, read at a row, is the sum over that row's features. -/
theorem lane_sum {φ : FTy} (src : FVec Ideal Blk φ) (acc : BitVec φ.bits) (h : Blk.Reduces [2] Rows) (hφ : FKind.Formats φ)
    (hacc : acc = FKind.add.neutral φ hφ) (p : Fin 2) (s : Fin 1024) :
    multiReduction .add [2] Rows src acc h hφ hacc (ix2 p s) = ∑ k : Fin 512, src (ix3 p s k) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

end MaskedRowNorm

end
-- ==== Proof.KernelPayload.lean ====
/-
  The kernel body's stored value, read at sequence p of the pair, row s, feature f, is the row-wise
  specification of the loaded block: the mask of row s under the length of sequence p, the masked row's
  mean and centred entries, the root of their mean square plus the stabilizer, the scale and shift, the mask.
-/
import proofs.«430774_j80152679678428_3_alg».proof.Proof.Gen.KernelIdeal.Skeleton
import proofs.«430774_j80152679678428_3_alg».proof.Proof.RowLayout
import proofs.«430774_j80152679678428_3_alg».proof.Proof.RowSpec

noncomputable section

namespace Cert.KernelIdeal.Payload

open Cert.KernelIdeal Cert.KernelIdeal.Gen Idealize.ShloMosaic Idealize.ShloMosaic.ValueIdx MaskedRowNorm

/-- The element-wise square root read at an index. -/
theorem sqrt_at {s : Shape} (a : FVec Ideal s .f32) (i : s.Idx) : sqrt a i = Ideal.sqrt (a i) := rfl

/-- The integer comparison read at an index. -/
theorem cmpi_at {s : Shape} {w : Nat} (p : CmpIPredicate) (a b : IVec s w) (i : s.Idx) :
    cmpi p a b i = IntOp.cmpi p (a i) (b i) := rfl

/-- The sum along the features from the zero word, read at row (p, s). -/
theorem row_sum (src : FVec Ideal S2x1024x512 .f32) (hφ : FKind.Formats .f32)
    (hacc : (0x00000000#32 : BitVec FTy.f32.bits) = 0x00000000#32) (p : Fin 2) (s : Fin 1024) :
    multiReduction .add [2] S2x1024 src 0x00000000#32 reduces_S2x1024x512_S2x1024 hφ hacc (ix2 p s)
      = ∑ k : Fin 512, src (ix3 p s k) :=
  lane_sum src _ _ hφ hacc p s

/-- The mask column at (p, s): 1 when row s is below the length of sequence p of the pair, else 0. -/
theorem mask_at (v3 v7 : Elt Ideal .i32) (p : Fin 2) (s : Fin 1024) :
    k0_pay2 (F := Ideal) v3 v7 (ix3 p s 0) = rowMask (if p = 0 then v3 else v7) s := by
  unfold k0_pay2
  dsimp only
  rw [sitofp_apply, extui_apply, cmpi_at, row_iota, pair_col]
  exact signed_widen _

/-- The stored value at (p, s, f). -/
theorem pay_at (v3 v7 : Elt Ideal .i32) (x0 : Vec Ideal S2x1024x512 .f32) (x1 x2 : Vec Ideal S512 .f32)
    (p : Fin 2) (s : Fin 1024) (f : Fin 512) :
    k0_pay1 (k0_pay3 v3 v7 x0 x1 x2) (k0_pay4 v3 v7) (ix3 p s f)
      = normRow (fun k => x0 (ix3 p s k)) (rowMask (if p = 0 then v3 else v7) s) nFeat stab (x1 (ix1 f)) (x2 (ix1 f)) f := by
  unfold k0_pay1 k0_pay3 k0_pay4
  dsimp only
  simp only [mulf_apply, addf_apply, subf_apply, divf_apply, sqrt_at, broadcast_apply, col_bcast, keepdims, feat_bcast,
    mask_at, Ideal.ofBits_def]
  rw [row_sum]
  simp only [mulf_apply, addf_apply, subf_apply, divf_apply, sqrt_at, broadcast_apply, col_bcast, keepdims, feat_bcast,
    mask_at, Ideal.ofBits_def]
  rw [row_sum]
  simp only [mulf_apply, addf_apply, subf_apply, divf_apply, sqrt_at, broadcast_apply, col_bcast, keepdims, feat_bcast,
    mask_at, Ideal.ofBits_def]
  rw [row_sum]
  simp only [mulf_apply, broadcast_apply, col_bcast, mask_at]
  rfl

/-- Sequence 2n + p of the array: sequence p of the pair that point n of the grid handles. -/
def seqOf (n : Fin 32) (p : Fin 2) : Fin 64 := ⟨2 * n.val + p.val, by have := n.isLt; have := p.isLt; omega⟩

/-- What point n stores at block index y is the specification of the whole arrays at the array index i that y
    names, when the point's input block holds the rows of sequences 2n and 2n+1, its parameter blocks are the
    parameter arrays, and the two lengths it reads are entries 2n and 2n+1. -/
theorem point_eq (X : FVec Ideal S64x1024x512 .f32) (W B : FVec Ideal S512 .f32) (Ls : IVec S64 32) (n : Fin 32)
    (x0 : Vec Ideal S2x1024x512 .f32) (x1 x2 : Vec Ideal S512 .f32) (v3 v7 : Elt Ideal .i32)
    (h0 : ∀ (p : Fin 2) (s : Fin 1024) (k : Fin 512), x0 (ix3 p s k) = X (ix3 (seqOf n p) s k))
    (h1 : ∀ f : Fin 512, x1 (ix1 f) = W (ix1 f)) (h2 : ∀ f : Fin 512, x2 (ix1 f) = B (ix1 f))
    (h3 : v3 = Ls (ix1 (seqOf n 0))) (h7 : v7 = Ls (ix1 (seqOf n 1)))
    (y : S2x1024x512.Idx) (i : S64x1024x512.Idx)
    (hi0 : (i 0).val = 2 * n.val + (y 0).val) (hi1 : (i 1).val = (y 1).val) (hi2 : (i 2).val = (y 2).val) :
    k0_pay1 (k0_pay3 v3 v7 x0 x1 x2) (k0_pay4 v3 v7) y = result X W B Ls i := by
  obtain ⟨p, s, f, rfl⟩ : ∃ (p : Fin 2) (s : Fin 1024) (f : Fin 512), y = ix3 p s f := ⟨y 0, y 1, y 2, eq_ix3 y⟩
  obtain ⟨b, s', f', rfl⟩ : ∃ (b : Fin 64) (s' : Fin 1024) (f' : Fin 512), i = ix3 b s' f' := ⟨i 0, i 1, i 2, eq_ix3 i⟩
  obtain rfl : b = seqOf n p := Fin.ext hi0
  obtain rfl : s' = s := Fin.ext hi1
  obtain rfl : f' = f := Fin.ext hi2
  rw [pay_at]
  show normRow _ _ _ _ _ _ f'
    = normRow (fun k => X (ix3 (seqOf n p) s' k)) (rowMask (Ls (ix1 (seqOf n p))) s') nFeat stab (W (ix1 f')) (B (ix1 f')) f'
  have er : (fun k => x0 (ix3 p s' k)) = fun k => X (ix3 (seqOf n p) s' k) := funext (h0 p s')
  have em : (if p = 0 then v3 else v7) = Ls (ix1 (seqOf n p)) := by
    by_cases hp : p = 0
    · subst hp; rw [if_pos rfl, h3]
    · have hp1 : p = 1 := Fin.ext (by
        have h2 := p.isLt
        have h0 : p.val ≠ 0 := fun h => hp (Fin.ext h)
        show p.val = 1
        omega)
      subst hp1; rw [if_neg (by decide), h7]
  rw [er, em, h1, h2]

end Cert.KernelIdeal.Payload

end
-- ==== Proof.KernelValue.lean ====
/-
  The kernel's result array is the row-wise specification of its argument arrays.

  Point t of the 32-point grid handles sequences 2t and 2t+1: its input block holds the rows of those two
  sequences, the two lengths it reads from the table are entries 2t and 2t+1, and it writes back block t of
  the result. The 32 blocks tile the array, so the array ends holding the specification at every index.
-/
import proofs.«430774_j80152679678428_3_alg».proof.Proof.Gen.KernelIdeal.Frame
import proofs.«430774_j80152679678428_3_alg».proof.Proof.KernelPayload
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Payload Idealize.ShloMosaic.ValueIdx MaskedRowNorm

theorem hz3 : (![0, 0, 0] : Fin 3 → Nat) = fun _ => 0 := funext fun a => by fin_cases a <;> rfl
theorem hz1 : (![0] : Fin 1 → Nat) = fun _ => 0 := funext fun a => by fin_cases a <;> rfl

section AnyValues

variable {F : FTy → Type} [FloatOps F]

/-- Word r (0 or 1) of the pair of lengths the body reads from the table at grid coordinates i. -/
def lenWord (c : Dev nD) (i : grid0.Coords) (r : Fin 2) (xt0 : TbBuf0 (F := F) c tbM0_0) : Elt F .i32 :=
  View.readAt (Elt F) tbM0_0.view (Rect.unit (s := S64) (k0_off1 i (BitVec.ofNat 32 r.val)) S1.size (k0_off1_inb i r)).toLoadRect xt0
    (Shape.Idx.first (numel1_S1.symm ▸ Nat.one_pos))

/-- What the body leaves in the output's staging buffer: the value of its one covering store, of the blocks
    it loaded and the two lengths it read. -/
theorem out_eq (c : Dev nD) (i : grid0.Coords) (arg2 : Memref sig .tc .vmem S2x1024x512 .f32) (harg2 : arg2.IsWhole)
    (arg3 : Memref sig .tc .vmem S512 .f32) (harg3 : arg3.IsWhole) (arg4 : Memref sig .tc .vmem S512 .f32) (harg4 : arg4.IsWhole)
    (arg5 : Memref sig .tc .vmem S2x1024x512 .f32) (harg5 : arg5.IsWhole)
    (x0 : Vec F S2x1024x512 .f32) (x1 : Vec F S512 .f32) (x2 : Vec F S512 .f32) (xt0 : TbBuf0 (F := F) c tbM0_0) :
    out0_A_3 c i arg2 harg2 arg3 harg3 arg4 harg4 arg5 harg5 x0 x1 x2 xt0
      = k0_pay1 (k0_pay3 (lenWord c i 0 xt0) (lenWord c i 1 xt0) x0 x1 x2) (k0_pay4 (lenWord c i 0 xt0) (lenWord c i 1 xt0)) := by
  unfold out0_A_3
  rw [View.read_writes_eq_canon _ _ _ (cover0_A_3 c i arg2 harg2 arg3 harg3 arg4 harg4 arg5 harg5 x0 x1 x2 xt0)]
  unfold kernelRun0_A
  dsimp only
  sl_unfold_words
  rw [View.canon_unit_zero hz3]
  have l0 : View.readAt (Elt F) arg2.view (Rect.unit (s := S2x1024x512) ![0, 0, 0] S2x1024x512.size inb_S2x1024x512_S2x1024x512_0_0_0).toLoadRect (harg2.unread x0) = x0 := by
    rw [View.readAt_eq_ld, harg2.read_unread, View.ld_unit_zero (S := S2x1024x512) hz3]
  have l1 : View.readAt (Elt F) arg3.view (Rect.unit (s := S512) ![0] S512.size inb_S512_S512_0).toLoadRect (harg3.unread x1) = x1 := by
    rw [View.readAt_eq_ld, harg3.read_unread, View.ld_unit_zero (S := S512) hz1]
  have l2 : View.readAt (Elt F) arg4.view (Rect.unit (s := S512) ![0] S512.size inb_S512_S512_0).toLoadRect (harg4.unread x2) = x2 := by
    rw [View.readAt_eq_ld, harg4.read_unread, View.ld_unit_zero (S := S512) hz1]
  rw [l0, l1, l2]
  rfl

end AnyValues

variable (m : (ℓ : Loc nD τ sig) → Buf (Elt Ideal) ℓ) (ρ : Dev nD → PrngReg)

/-- No index map reads the table of lengths, so the pipeline's side condition on its contents is empty. -/
theorem ok : Ok m := by
  show ok0 (tbl m)
  unfold ok0
  trivial

/-- The result array the kernel ends with, on core c. -/
def res (c : Dev nD) : Buf (Elt Ideal) ((c : Thread nD τ).loc main_v0) :=
  result (V m c main_arg0) (V m c main_arg1) (V m c main_arg2) (tbl m 0)

/-- The one index of a unit rectangle at offset k of the table is entry k. -/
theorem idx_eq (off : Fin 1 → Nat) (k : Fin 64) (hoff : off 0 = k.val) (inb : ∀ a, off a + S1.size a ≤ S64.size a)
    (h1 : 0 < S1.numel) : (Rect.unit (s := S64) off S1.size inb).idx (Shape.Idx.first h1) = ix1 k := by
  funext a
  apply Fin.ext
  match a with
  | ⟨0, _⟩ =>
    show off 0 + 1 * (Shape.Idx.first h1 (0 : Fin 1)).val = k.val
    show off 0 + 1 * 0 = k.val
    omega

/-- The word the body reads at point n, position r of the pair, is entry 2n + r of the table. -/
theorem word_eq (c : Dev nD) (n : Fin 32) (i : grid0.Coords) (hi : (i 0).val = n.val) (r : Fin 2) :
    lenWord c i r (tbl m 0) = (tbl m 0 : IVec S64 32) (ix1 (seqOf n r)) := by
  unfold lenWord
  exact congrArg (tbl m 0 : IVec S64 32) (idx_eq _ (seqOf n r)
    ((congrFun (k0_off1_eq i r) 0).trans (by show 2 * (i 0).val + r.val = 2 * n.val + r.val; rw [hi])) _ _)

/-- The grid has 32 points, and point t has coordinate t. -/
theorem coord_eq : ∀ t : Fin grid0.N, (grid0.coords t 0).val = t.val := by decide +kernel

theorem lt32 (hO : Ok m) (t : Fin (cfgM m hO).N) : t.val < 32 := lt_of_lt_of_eq t.isLt (N_0 : grid0.N = 32)

/-- The index maps over the grid: the input and the result move one block per point along the sequences and
    stay at block 0 along rows and features; the two parameter vectors stay at their one block. -/
theorem idx_facts (hO : Ok m) : ∀ t : Fin (cfgM m hO).N,
    ((cfgM m hO).win 0).index t (0 : Fin 3) = t.val ∧ ((cfgM m hO).win 0).index t (1 : Fin 3) = 0
    ∧ ((cfgM m hO).win 0).index t (2 : Fin 3) = 0
    ∧ ((cfgM m hO).win 1).index t (0 : Fin 1) = 0 ∧ ((cfgM m hO).win 2).index t (0 : Fin 1) = 0
    ∧ ((cfgM m hO).win 3).index t (0 : Fin 3) = t.val ∧ ((cfgM m hO).win 3).index t (1 : Fin 3) = 0
    ∧ ((cfgM m hO).win 3).index t (2 : Fin 3) = 0 :=
  (by decide +kernel : ∀ t : Fin grid0.N,
    cc0_transform_0 (grid0.coords t) (0 : Fin 3) = t.val ∧ cc0_transform_0 (grid0.coords t) (1 : Fin 3) = 0
    ∧ cc0_transform_0 (grid0.coords t) (2 : Fin 3) = 0
    ∧ cc0_transform_1 (grid0.coords t) (0 : Fin 1) = 0 ∧ cc0_transform_2 (grid0.coords t) (0 : Fin 1) = 0
    ∧ cc0_transform_3 (grid0.coords t) (0 : Fin 3) = t.val ∧ cc0_transform_3 (grid0.coords t) (1 : Fin 3) = 0
    ∧ cc0_transform_3 (grid0.coords t) (2 : Fin 3) = 0)

/-- The input block at point t holds the rows of sequences 2t and 2t+1. -/
theorem xblk_at (hO : Ok m) (c : Dev nD) (t : Fin (cfgM m hO).N) (p : Fin 2) (s : Fin 1024) (k : Fin 512) :
    (iblk m hO c 0 t : Vec Ideal S2x1024x512 .f32) (ix3 p s k)
      = (V m c main_arg0 : FVec Ideal S64x1024x512 .f32) (ix3 (seqOf ⟨t.val, lt32 m hO t⟩ p) s k) := by
  obtain ⟨e0, e1, e2, -⟩ := idx_facts m hO t
  show V m c main_arg0 ((((cfgM m hO).win 0).blk t).view.emb (ix3 p s k)) = V m c main_arg0 _
  refine congrArg (V m c main_arg0) (funext fun a => Fin.ext ?_)
  match a with
  | ⟨0, _⟩ => show ((cfgM m hO).win 0).index t (0 : Fin 3) * 2 + 1 * p.val = 2 * t.val + p.val; rw [e0]; omega
  | ⟨1, _⟩ => show ((cfgM m hO).win 0).index t (1 : Fin 3) * 1024 + 1 * s.val = s.val; rw [e1]; omega
  | ⟨2, _⟩ => show ((cfgM m hO).win 0).index t (2 : Fin 3) * 512 + 1 * k.val = k.val; rw [e2]; omega

/-- The scale block at every point is the scale vector. -/
theorem wblk_at (hO : Ok m) (c : Dev nD) (t : Fin (cfgM m hO).N) (f : Fin 512) :
    (iblk m hO c 1 t : Vec Ideal S512 .f32) (ix1 f) = (V m c main_arg1 : FVec Ideal S512 .f32) (ix1 f) := by
  obtain ⟨-, -, -, e1, -⟩ := idx_facts m hO t
  show V m c main_arg1 ((((cfgM m hO).win 1).blk t).view.emb (ix1 f)) = V m c main_arg1 _
  refine congrArg (V m c main_arg1) (funext fun a => Fin.ext ?_)
  match a with
  | ⟨0, _⟩ => show ((cfgM m hO).win 1).index t (0 : Fin 1) * 512 + 1 * f.val = f.val; rw [e1]; omega

/-- The shift block at every point is the shift vector. -/
theorem bblk_at (hO : Ok m) (c : Dev nD) (t : Fin (cfgM m hO).N) (f : Fin 512) :
    (iblk m hO c 2 t : Vec Ideal S512 .f32) (ix1 f) = (V m c main_arg2 : FVec Ideal S512 .f32) (ix1 f) := by
  obtain ⟨-, -, -, -, e2, -⟩ := idx_facts m hO t
  show V m c main_arg2 ((((cfgM m hO).win 2).blk t).view.emb (ix1 f)) = V m c main_arg2 _
  refine congrArg (V m c main_arg2) (funext fun a => Fin.ext ?_)
  match a with
  | ⟨0, _⟩ => show ((cfgM m hO).win 2).index t (0 : Fin 1) * 512 + 1 * f.val = f.val; rw [e2]; omega

/-- What point t writes back is block t of the result. -/
theorem flushed_eq (hO : Ok m) (c : Dev nD) (t : Fin (cfgM m hO).N) :
    (dats m hO 0 c).flushed 3 t = (((cfgM m hO).win 3).blk t).view.read (Elt Ideal) (res m c) := by
  show ((cfgM m hO).win 3).cut (grid0.coords t) ((dats m hO 0 c).after 3 t) = _
  rw [after0_3]
  unfold outsAt0
  refine funext fun (j : S2x1024x512.Idx) => ?_
  obtain ⟨-, -, -, -, -, e0, e1, e2⟩ := idx_facts m hO t
  show out0_A_3 c (grid0.coords t) (ms0_0 m hO t) (hs0_0 m hO t) (ms0_1 m hO t) (hs0_1 m hO t) (ms0_2 m hO t) (hs0_2 m hO t)
      (ms0_3 m hO t) (hs0_3 m hO t) (iblk m hO c 0 t) (iblk m hO c 1 t) (iblk m hO c 2 t) (tbl m 0) j
    = res m c ((((cfgM m hO).win 3).blk t).view.emb j)
  refine (congrFun (out_eq (F := Ideal) c (grid0.coords t) (ms0_0 m hO t) (hs0_0 m hO t) (ms0_1 m hO t) (hs0_1 m hO t)
    (ms0_2 m hO t) (hs0_2 m hO t) (ms0_3 m hO t) (hs0_3 m hO t) (iblk m hO c 0 t) (iblk m hO c 1 t) (iblk m hO c 2 t) (tbl m 0)) j).trans ?_
  exact point_eq (V m c main_arg0) (V m c main_arg1) (V m c main_arg2) (tbl m 0) ⟨t.val, lt32 m hO t⟩
    (iblk m hO c 0 t) (iblk m hO c 1 t) (iblk m hO c 2 t)
    (lenWord c (grid0.coords t) 0 (tbl m 0)) (lenWord c (grid0.coords t) 1 (tbl m 0))
    (fun p s k => xblk_at m hO c t p s k) (fun f => wblk_at m hO c t f) (fun f => bblk_at m hO c t f)
    (word_eq m c ⟨t.val, lt32 m hO t⟩ (grid0.coords t) (coord_eq t) 0)
    (word_eq m c ⟨t.val, lt32 m hO t⟩ (grid0.coords t) (coord_eq t) 1)
    j ((((cfgM m hO).win 3).blk t).view.emb j)
    (by show ((cfgM m hO).win 3).index t (0 : Fin 3) * 2 + 1 * (j 0).val = 2 * t.val + (j 0).val; rw [e0]; omega)
    (by show ((cfgM m hO).win 3).index t (1 : Fin 3) * 1024 + 1 * (j 1).val = (j 1).val; rw [e1]; omega)
    (by show ((cfgM m hO).win 3).index t (2 : Fin 3) * 512 + 1 * (j 2).val = (j 2).val; rw [e2]; omega)

/-- Every index of the result array lies in the block of the point that handles its sequence. -/
theorem cover (hO : Ok m) (c : Dev nD) (i : S64x1024x512.Idx) :
    ∃ t : Fin (cfgM m hO).N, ((cfgM m hO).win 3).flush t = true ∧ i ∈ (((cfgM m hO).win 3).blk t).view.set := by
  have h0 : (i 0 : Nat) < 64 := (i 0).isLt
  have h1 : (i 1 : Nat) < 1024 := (i 1).isLt
  have h2 : (i 2 : Nat) < 512 := (i 2).isLt
  have hN : (cfgM m hO).N = 32 := N_0
  let t : Fin (cfgM m hO).N := ⟨(i 0 : Nat) / 2, by rw [hN]; omega⟩
  have hv : t.val = (i 0 : Nat) / 2 := rfl
  obtain ⟨-, -, -, -, -, e0, e1, e2⟩ := idx_facts m hO t
  refine ⟨t, flush0_3 (adm m hO) t, ?_⟩
  show i ∈ ((View.whole main_v0).slice (((cfgM m hO).win 3).rect t)).set
  refine (congrArg (i ∈ ·) (View.set_slice_whole main_v0 (((cfgM m hO).win 3).rect t))).mpr ?_
  refine Rect.mem_set_unit.mpr fun a => ?_
  match a with
  | ⟨0, _⟩ =>
    show ((cfgM m hO).win 3).index t (0 : Fin 3) * 2 ≤ (i 0 : Nat) ∧ (i 0 : Nat) < ((cfgM m hO).win 3).index t (0 : Fin 3) * 2 + 2
    rw [e0, hv]; omega
  | ⟨1, _⟩ =>
    show ((cfgM m hO).win 3).index t (1 : Fin 3) * 1024 ≤ (i 1 : Nat) ∧ (i 1 : Nat) < ((cfgM m hO).win 3).index t (1 : Fin 3) * 1024 + 1024
    rw [e1]; omega
  | ⟨2, _⟩ =>
    show ((cfgM m hO).win 3).index t (2 : Fin 3) * 512 ≤ (i 2 : Nat) ∧ (i 2 : Nat) < ((cfgM m hO).win 3).index t (2 : Fin 3) * 512 + 512
    rw [e2]; omega

/-- So the result array ends holding the specification. -/
theorem final (hO : Ok m) (c : Dev nD) : (dats m hO 0 c).arrAt 3 (cfgM m hO).N = res m c :=
  (dats m hO 0 c).arrAt_eq_of_cover 3 (res m c) (fun t _ => flushed_eq m hO c t) (cover m hO c)

/-- The run, read: the result array at the specification of the launch contents, the arguments unchanged. -/
theorem run (hO : Ok m) : θ_run defs (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).2 main_arg3 (by decide : main_arg3 ∈ Pipeline.restRefs sig spec0)).trans (V_main_arg3 m c)⟩)
    (run_main m ρ hO)

end Cert.KernelIdeal.ArrayValue

end
-- ==== Proof.lean ====
/-
  A masked layer normalization over the features of every row of 64 sequences of 1024 rows and 512 features,
  followed by a per-feature scale and shift, the rows at or beyond their sequence's length zeroed.

  Both programs compute, for sequence b, row s, feature f, with M the 0/1 mask "s is below the length of b":
      xm_k = x_k · M,   c_k = xm_k − (∑_j xm_j) / 512,
      y_f  = ((c_f / (√((∑_j c_j²) / 512) + ε)) · g_f + β_f) · M
  on the extended reals. The kernel works on blocks of two sequences, reading the two lengths from a table; the
  reference works on the whole array and multiplies the centred entries by M once more, which for a 0/1 mask
  changes nothing (for M = 1 the factor is the identity, for M = 0 both results are a product with 0).
  The same single-precision words spell 512 and ε in both programs, so neither is ever evaluated.
-/
import proofs.«430774_j80152679678428_3_alg».proof.Defs
import proofs.«430774_j80152679678428_3_alg».proof.Proof.Gen.Kernel
import proofs.«430774_j80152679678428_3_alg».proof.Proof.Gen.Kernel.Skeleton
import proofs.«430774_j80152679678428_3_alg».proof.Proof.Gen.Kernel.Launch
import proofs.«430774_j80152679678428_3_alg».proof.Proof.Gen.Kernel.Points
import proofs.«430774_j80152679678428_3_alg».proof.Proof.Gen.Kernel.Frame
import proofs.«430774_j80152679678428_3_alg».proof.Proof.Gen.KernelIdeal
import proofs.«430774_j80152679678428_3_alg».proof.Proof.Gen.KernelIdeal.Skeleton
import proofs.«430774_j80152679678428_3_alg».proof.Proof.Gen.KernelIdeal.Launch
import proofs.«430774_j80152679678428_3_alg».proof.Proof.Gen.KernelIdeal.Points
import proofs.«430774_j80152679678428_3_alg».proof.Proof.Gen.KernelIdeal.Frame
import proofs.«430774_j80152679678428_3_alg».proof.Proof.Gen.ReferenceIdeal
import proofs.«430774_j80152679678428_3_alg».proof.Proof.Gen.ReferenceIdeal.Run
import proofs.«430774_j80152679678428_3_alg».proof.Proof.Gen.ReferenceIdeal.Read
import proofs.«430774_j80152679678428_3_alg».proof.Proof.Gen.Pre_finite_inputs
import proofs.«430774_j80152679678428_3_alg».proof.Proof.RefValue
import proofs.«430774_j80152679678428_3_alg».proof.Proof.KernelValue
import Idealize.ShloMosaic.Adequacy
import Idealize.ShloMosaic.Init

noncomputable section

namespace Cert.Proof

open Idealize.ShloMosaic Idealize.SL.Sem

/-- No index map of the word-level kernel reads the table of lengths either. -/
theorem okBits (m : (ℓ : Loc Cert.Kernel.nD Cert.Kernel.τ Cert.Kernel.sig) → Buf (Elt Bits) ℓ) : Cert.Kernel.Gen.Ok m := by
  show Cert.Kernel.ok0 (Cert.Kernel.Gen.tbl m)
  unfold Cert.Kernel.ok0
  trivial

theorem frame_k : Cert.frame_Kernel (hKernel := Cert.Kernel.Gen.facts) (hPre_finite_inputs := Cert.Pre_finite_inputs.Gen.facts) :=
  fun m ρ _ => Cert.Kernel.Gen.frame m ρ (okBits m)

theorem frame_ki : Cert.frame_KernelIdeal (hKernelIdeal := Cert.KernelIdeal.Gen.facts) (hPre_finite_inputs := Cert.Pre_finite_inputs.Gen.facts) :=
  fun m ρ _ => Cert.KernelIdeal.Gen.frame m ρ (Cert.KernelIdeal.ArrayValue.ok m)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's result array ends at the row-wise specification of its arguments, the reference's at the same
    specification of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ArrayValue.res m c,
    Cert.KernelIdeal.ArrayValue.run m ρ (Cert.KernelIdeal.ArrayValue.ok m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.result_eq,
    (hagree c).1, (hagree c).2.1, (hagree c).2.2.1, (hagree c).2.2.2]
  obtain rfl : c = 0 := Subsingleton.elim _ _
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
